-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S16384 : Shape := ⟨1, ![16384]⟩
abbrev S751x2048 : Shape := ⟨2, ![751, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S751x2048 : S_.BroadcastsInDim S751x2048 (![] : Fin 0 → Fin S751x2048.rank)
  reducesTo_S751x2048_S_d0_1 : S751x2048.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x2048 .f32) (main_arg1 : IVec S16384 32) (main_arg2 : FVec F S751x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S751x2048 .f32 := Host.absf main_arg2
  let main_cst_0 : FVec F S_ .f32 := constant S_ .f32 0x7F800000#32
  let main_v5 : FVec F S751x2048 .f32 := broadcastInDim S751x2048 ![] bcast_S_S751x2048 main_cst_0
  let main_v6 : IVec S751x2048 1 := cmpf .olt main_v4 main_v5
  let main_c_1 : IVec S_ 1 := constantI S_ 1 1#1
  let main_v7 : IVec S_ 1 := (fun x v => Host.reduce IntOp.andi x v reducesTo_S751x2048_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg1 main_v9
  let main_c_3 : IVec S_ 32 := constantI S_ 32 751#32
  let main_v11 : IVec S16384 32 := broadcastInDim S16384 ![] bcast_S_S16384 main_c_3
  let main_v12 : IVec S16384 1 := cmpi .slt main_arg1 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  main_v15
-- ==== Kernel.lean ====
abbrev S16384x2048 : Shape := ⟨2, ![16384, 2048]⟩
abbrev S16384 : Shape := ⟨1, ![16384]⟩
abbrev S751x2048 : Shape := ⟨2, ![751, 2048]⟩
abbrev S_ : Shape := ⟨0, ![]⟩
abbrev S768x2048 : Shape := ⟨2, ![768, 2048]⟩
abbrev S751 : Shape := ⟨1, ![751]⟩
abbrev S16384x1 : Shape := ⟨2, ![16384, 1]⟩
abbrev S1024x2048 : Shape := ⟨2, ![1024, 2048]⟩
abbrev S1024x1 : Shape := ⟨2, ![1024, 1]⟩
abbrev S2048x768 : Shape := ⟨2, ![2048, 768]⟩
abbrev S1024x768 : Shape := ⟨2, ![1024, 768]⟩
abbrev S1024 : Shape := ⟨1, ![1024]⟩

abbrev nBuf : Space → Nat
  | .hbm => 34
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S16384, .i32⟩
  | .hbm, ⟨2, _⟩ => ⟨S751x2048, .f32⟩
  | .hbm, ⟨3, _⟩ => ⟨S_, .i32⟩
  | .hbm, ⟨4, _⟩ => ⟨S_, .f32⟩
  | .hbm, ⟨5, _⟩ => ⟨S768x2048, .f32⟩
  | .hbm, ⟨6, _⟩ => ⟨S768x2048, .bf16⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S751x2048, .f32⟩
  | .hbm, ⟨16, _⟩ => ⟨S_, .f32⟩
  | .hbm, ⟨17, _⟩ => ⟨S751, .f32⟩
  | .hbm, ⟨18, _⟩ => ⟨S_, .i32⟩
  | .hbm, ⟨19, _⟩ => ⟨S16384, .i32⟩
  | .hbm, ⟨20, _⟩ => ⟨S16384, .i1⟩
  | .hbm, ⟨21, _⟩ => ⟨S_, .i32⟩
  | .hbm, ⟨22, _⟩ => ⟨S16384, .i32⟩
  | .hbm, ⟨23, _⟩ => ⟨S16384, .i32⟩
  | .hbm, ⟨24, _⟩ => ⟨S16384, .i32⟩
  | .hbm, ⟨25, _⟩ => ⟨S16384x1, .i32⟩
  | .hbm, ⟨26, _⟩ => ⟨S16384, .f32⟩
  | .hbm, ⟨27, _⟩ => ⟨S16384x1, .f32⟩
  | .hbm, ⟨28, _⟩ => ⟨S16384x1, .i32⟩
  | .hbm, ⟨29, _⟩ => ⟨S16384x1, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S1024x2048, .f32⟩
  | .local _ .vmem, ⟨1, _⟩ => ⟨S1024x2048, .f32⟩
  | .local _ .vmem, ⟨2, _⟩ => ⟨S768x2048, .bf16⟩
  | .local _ .vmem, ⟨3, _⟩ => ⟨S1024x1, .i32⟩
  | .local _ .vmem, ⟨4, _⟩ => ⟨S1024x1, .i32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_c_1 : Ref sig .tc := ⟨.hbm, 8, rfl⟩
abbrev main_call1_v0 : Ref sig .tc := ⟨.hbm, 9, rfl⟩
abbrev main_call1_v1 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_c_2 : Ref sig .tc := ⟨.hbm, 18, rfl⟩
abbrev main_v5 : Ref sig .tc := ⟨.hbm, 19, rfl⟩
abbrev main_v6 : Ref sig .tc := ⟨.hbm, 20, rfl⟩
abbrev main_c_3 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_cst_5 : Ref sig .tc := ⟨.hbm, 32, rfl⟩
abbrev main_v16 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  pads_S751x2048_S768x2048_0170_000 : S751x2048.Pads (![0, 0] : Fin 2 → Nat) ![17, 0] ![0, 0] S768x2048
  h_S_ : 0 < S_.numel
  bitsLt_bf16_f32 : FTy.bits .bf16 < FTy.bits .f32
  bcast_S_S16384 : S_.BroadcastsInDim S16384 (![] : Fin 0 → Fin S16384.rank)
  reducesTo_S751x2048_S751_d1 : S751x2048.ReducesTo [1] S751
  bcast_S16384_S16384x1_0 : S16384.BroadcastsInDim S16384x1 (![0] : Fin 1 → Fin S16384x1.rank)
  shapeCasts_S16384_S16384x1 : S16384.ShapeCasts S16384x1
  inb_S1024x2048_S1024x2048_0_0 : ∀ a, (![0, 0] : Fin 2 → Nat) a + S1024x2048.size a ≤ S1024x2048.size a
  h_S1024x2048 : 0 < S1024x2048.numel
  inb_S768x2048_S768x2048_0_0 : ∀ a, (![0, 0] : Fin 2 → Nat) a + S768x2048.size a ≤ S768x2048.size a
  h_S768x2048 : 0 < S768x2048.numel
  shapeCasts_S768x2048_S768x2048 : S768x2048.ShapeCasts S768x2048
  transposes_S768x2048_p1_0_S2048x768 : S768x2048.Transposes [1, 0] S2048x768
  reduces_S1024x2048_S1024 : S1024x2048.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x768_d1_w32 : S1024x768.Iotas .tc 32 [1]
  broadcasts_S1024x1_S1024x768 : S1024x1.Broadcasts S1024x768
  reduces_S1024x768_S1024 : S1024x768.Reduces [1] S1024
  reducesTo_S16384x1_S_d0_1 : S16384x1.ReducesTo [0, 1] S_
  gather_S751_S16384x1_S16384_n_0_n_n_0_1_1_wf : GatherDims.WF S751 S16384x1 S16384 [] [0] [] [0] [] 1 ![1]
  dot_S1024x2048_S2048x768_S1024x768_1_0_0_1_n_n_wf : DotDims.WF S1024x2048 S2048x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2048.size a ≤ S768x2048.size a
  hwx0_1 : ∀ i : grid0.Coords, EltTy.bits .bf16 = 32 ∨ (Rect.block (s := S768x2048) S768x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .i32 = 32 ∨ (Rect.block (s := S16384x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S16384x1.size a
  hwx0_3 : ∀ i : grid0.Coords, EltTy.bits .f32 = 32 ∨ (Rect.block (s := S16384x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S16384x1.size a
  hwx0_4 : ∀ i : grid0.Coords, EltTy.bits .f32 = 32 ∨ (Rect.block (s := S16384x1) S1024x1.size (cc0_transform_4 i) (hinb0_4 i)).WholeWords (EltTy.packing .f32)

variable [Facts₀]

def gather_S751_S16384x1_S16384_n_0_n_n_0_1_1 : GatherDims S751 S16384x1 S16384 where
  offsetDims := []
  collapsedSliceDims := [0]
  operandBatchingDims := []
  startIndicesBatchingDims := []
  startIndexMap := [0]
  indexVectorDim := 1
  sliceSizes := ![1]
  wf := gather_S751_S16384x1_S16384_n_0_n_n_0_1_1_wf
def dot_S1024x2048_S2048x768_S1024x768_1_0_0_1_n_n : DotDims S1024x2048 S2048x768 S1024x768 where
  lhsContracting := [1]
  rhsContracting := [0]
  lhsNonContracting := [0]
  rhsNonContracting := [1]
  lhsBatch := []
  rhsBatch := []
  wf := dot_S1024x2048_S2048x768_S1024x768_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S16384 : Shape := ⟨1, ![16384]⟩
abbrev S751x2048 : Shape := ⟨2, ![751, 2048]⟩
abbrev S_ : Shape := ⟨0, ![]⟩
abbrev S16384x1 : Shape := ⟨2, ![16384, 1]⟩
abbrev S751 : Shape := ⟨1, ![751]⟩
abbrev S1x751 : Shape := ⟨2, ![1, 751]⟩
abbrev S16384x751 : Shape := ⟨2, ![16384, 751]⟩
abbrev S2048x751 : Shape := ⟨2, ![2048, 751]⟩
abbrev S16384x1x1 : Shape := ⟨3, ![16384, 1, 1]⟩
abbrev S1 : Shape := ⟨1, ![1]⟩
abbrev S1x1x1 : Shape := ⟨3, ![1, 1, 1]⟩

abbrev nBuf : Space → Nat
  | .hbm => 56
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384, .i32⟩
  | .hbm, ⟨2, _⟩ => ⟨S751x2048, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S751x2048, .f32⟩
  | .hbm, ⟨8, _⟩ => ⟨S_, .f32⟩
  | .hbm, ⟨9, _⟩ => ⟨S751, .f32⟩
  | .hbm, ⟨10, _⟩ => ⟨S1x751, .f32⟩
  | .hbm, ⟨11, _⟩ => ⟨S16384x751, .f32⟩
  | .hbm, ⟨12, _⟩ => ⟨S16384x751, .f32⟩
  | .hbm, ⟨13, _⟩ => ⟨S16384x751, .f32⟩
  | .hbm, ⟨14, _⟩ => ⟨S2048x751, .f32⟩
  | .hbm, ⟨15, _⟩ => ⟨S16384x751, .f32⟩
  | .hbm, ⟨16, _⟩ => ⟨S_, .f32⟩
  | .hbm, ⟨17, _⟩ => ⟨S16384x751, .f32⟩
  | .hbm, ⟨18, _⟩ => ⟨S16384x751, .f32⟩
  | .hbm, ⟨19, _⟩ => ⟨S16384x751, .f32⟩
  | .hbm, ⟨20, _⟩ => ⟨S16384x1, .i32⟩
  | .hbm, ⟨21, _⟩ => ⟨S_, .i32⟩
  | .hbm, ⟨22, _⟩ => ⟨S16384x1, .i32⟩
  | .hbm, ⟨23, _⟩ => ⟨S16384x1, .i1⟩
  | .hbm, ⟨24, _⟩ => ⟨S_, .i32⟩
  | .hbm, ⟨25, _⟩ => ⟨S16384x1, .i32⟩
  | .hbm, ⟨26, _⟩ => ⟨S16384x1, .i32⟩
  | .hbm, ⟨27, _⟩ => ⟨S16384x1, .i32⟩
  | .hbm, ⟨28, _⟩ => ⟨S16384x1x1, .i32⟩
  | .hbm, ⟨29, _⟩ => ⟨S1, .i32⟩
  | .hbm, ⟨30, _⟩ => ⟨S_, .i32⟩
  | .hbm, ⟨31, _⟩ => ⟨S16384x1x1, .i32⟩
  | .hbm, ⟨32, _⟩ => ⟨S16384x1x1, .i1⟩
  | .hbm, ⟨33, _⟩ => ⟨S1x1x1, .i32⟩
  | .hbm, ⟨34, _⟩ => ⟨S16384x1x1, .i32⟩
  | .hbm, ⟨35, _⟩ => ⟨S16384x1x1, .i1⟩
  | .hbm, ⟨36, _⟩ => ⟨S16384x1x1, .i1⟩
  | .hbm, ⟨37, _⟩ => ⟨S_, .i1⟩
  | .hbm, ⟨38, _⟩ => ⟨S16384x1, .i1⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S16384, .f32⟩
  | .hbm, ⟨48, _⟩ => ⟨S16384, .f32⟩
  | .hbm, ⟨49, _⟩ => ⟨S_, .f32⟩
  | .hbm, ⟨50, _⟩ => ⟨S16384, .f32⟩
  | .hbm, ⟨51, _⟩ => ⟨S16384, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_cst : Ref sig .tc := ⟨.hbm, 40, rfl⟩
abbrev main_call0_v14 : Ref sig .tc := ⟨.hbm, 41, rfl⟩
abbrev main_v15 : Ref sig .tc := ⟨.hbm, 42, rfl⟩
abbrev main_v16 : Ref sig .tc := ⟨.hbm, 43, rfl⟩
abbrev main_cst_2 : Ref sig .tc := ⟨.hbm, 44, rfl⟩
abbrev main_cst_3 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v17 : Ref sig .tc := ⟨.hbm, 51, rfl⟩
abbrev main_cst_4 : Ref sig .tc := ⟨.hbm, 52, rfl⟩
abbrev main_v18 : Ref sig .tc := ⟨.hbm, 53, rfl⟩
abbrev main_cst_5 : Ref sig .tc := ⟨.hbm, 54, rfl⟩
abbrev main_v19 : Ref sig .tc := ⟨.hbm, 55, rfl⟩

abbrev nD : Nat := 1
abbrev τ : Topo := Topo.v7x

variable {F : FTy → Type} [FloatOps F]

class Facts₀ : Prop where
  reducesTo_S16384x2048_S16384_d1 : S16384x2048.ReducesTo [1] S16384
  h_S_ : 0 < S_.numel
  bcast_S16384_S16384x1_0 : S16384.BroadcastsInDim S16384x1 (![0] : Fin 1 → Fin S16384x1.rank)
  reducesTo_S751x2048_S751_d1 : S751x2048.ReducesTo [1] S751
  bcast_S751_S1x751_1 : S751.BroadcastsInDim S1x751 (![1] : Fin 1 → Fin S1x751.rank)
  bcast_S16384x1_S16384x751_0_1 : S16384x1.BroadcastsInDim S16384x751 (![0, 1] : Fin 2 → Fin S16384x751.rank)
  bcast_S1x751_S16384x751_0_1 : S1x751.BroadcastsInDim S16384x751 (![0, 1] : Fin 2 → Fin S16384x751.rank)
  transposes_S751x2048_S2048x751_1_0 : S751x2048.Transposes [1, 0] S2048x751
  bcast_S_S16384x751 : S_.BroadcastsInDim S16384x751 (![] : Fin 0 → Fin S16384x751.rank)
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  shapeCasts_S16384x1_S16384 : S16384x1.ShapeCasts S16384
  bcast_S_S16384 : S_.BroadcastsInDim S16384 (![] : Fin 0 → Fin S16384.rank)
  reducesTo_S16384_S_d0 : S16384.ReducesTo [0] S_
  dot_S16384x2048_S2048x751_S16384x751_1_0_0_1_n_n_wf : DotDims.WF S16384x2048 S2048x751 S16384x751 [1] [0] [0] [1] [] []
  gather_S16384x751_S16384x1x1_S16384x1_n_1_0_0_1_2_11_wf : GatherDims.WF S16384x751 S16384x1x1 S16384x1 [] [1] [0] [1] [0] 2 ![1, 1]

variable [Facts₀]

def dot_S16384x2048_S2048x751_S16384x751_1_0_0_1_n_n : DotDims S16384x2048 S2048x751 S16384x751 where
  lhsContracting := [1]
  rhsContracting := [0]
  lhsNonContracting := [0]
  rhsNonContracting := [1]
  lhsBatch := []
  rhsBatch := []
  wf := dot_S16384x2048_S2048x751_S16384x751_1_0_0_1_n_n_wf
def gather_S16384x751_S16384x1x1_S16384x1_n_1_0_0_1_2_11 : GatherDims S16384x751 S16384x1x1 S16384x1 where
  offsetDims := []
  collapsedSliceDims := [1]
  operandBatchingDims := [0]
  startIndicesBatchingDims := [0]
  startIndexMap := [1]
  indexVectorDim := 2
  sliceSizes := ![1, 1]
  wf := gather_S16384x751_S16384x1x1_S16384x1_n_1_0_0_1_2_11_wf

class Facts : Prop extends Facts₀ where

variable [Facts]
-- ==== Proof.Spec.lean ====
/-
  The value both programs compute, as one function of the three argument arrays over the extended reals.

  For row `b` of `x` and class `l`, the squared distance to the class's center, expanded:
      |x_b|² + |c_l|² − 2 · ⟨x_b, c_l⟩,
  each of the three a sum over the 2048 features. It is clipped into [lo, hi] (two float literals both programs
  carry), the class being the one row `b`'s label names, and the result is the mean over the 16384 rows: the sum
  divided by the literal 16384.

  A label is a 32-bit word read signed. `cls` reads it as a table gather does: clamped into [0, 750]. For a word
  in the label range [0, 751) the clamp does nothing, and the word, its signed value and its unsigned value all name
  the same class (`cls_val`, `toNat_lt`, `toInt_eq_toNat`).
-/
import Idealize.ShloMosaic.PureOps.Ideal
import Idealize.ShloMosaic.PureOps.Ideal.Laws
import Idealize.ShloMosaic.Lib.ValueIdx

noncomputable section

namespace Cert.CenterDist

open Idealize.ShloMosaic Idealize.ShloMosaic.ValueIdx

/-- The lower clip bound: the float nearest 1e-12. -/
def lo : EReal := Ideal.ofBits .f32 0x2B8CBCCC#32
/-- The upper clip bound: the float nearest 1e12. -/
def hi : EReal := Ideal.ofBits .f32 0x5368D4A5#32
/-- The factor of the inner product. -/
def two : EReal := Ideal.ofBits .f32 0x40000000#32
/-- The number of rows, as the float both programs divide by. -/
def count : EReal := Ideal.ofBits .f32 0x46800000#32

/-- The class a label word names: read signed, clamped into the 751 classes. -/
def cls (w : BitVec 32) : Fin 751 := ⟨min w.toInt.toNat 750, by omega⟩

/-- The squared norm of row `l` of the centers. -/
def cenSq (cen : (⟨2, ![751, 2048]⟩ : Shape).Idx → EReal) (l : Fin 751) : EReal :=
  ∑ k : Fin 2048, cen (ix2 l k) * cen (ix2 l k)

/-- The clipped squared distance from row `b` of `x` to center `l`. -/
def rowTerm (x : (⟨2, ![16384, 2048]⟩ : Shape).Idx → EReal) (cen : (⟨2, ![751, 2048]⟩ : Shape).Idx → EReal)
    (b : Fin 16384) (l : Fin 751) : EReal :=
  min hi (max lo (((∑ k : Fin 2048, x (ix2 b k) * x (ix2 b k)) + cenSq cen l)
    - two * ∑ k : Fin 2048, x (ix2 b k) * cen (ix2 l k)))

/-- The mean over the rows of each row's clipped squared distance to its label's center. -/
def meanLoss (x : (⟨2, ![16384, 2048]⟩ : Shape).Idx → EReal) (lab : (⟨1, ![16384]⟩ : Shape).Idx → BitVec 32)
    (cen : (⟨2, ![751, 2048]⟩ : Shape).Idx → EReal) : EReal :=
  Ideal.div (∑ b : Fin 16384, rowTerm x cen b (cls (lab (ix1 b)))) count

/-- A label word is in the label range when its signed value is in [0, 751). -/
def InRange (w : BitVec 32) : Prop := 0 ≤ w.toInt ∧ w.toInt < 751

/-- A word whose signed value is not negative has that value as its unsigned one. -/
theorem toInt_eq_toNat {w : BitVec 32} (h : InRange w) : w.toInt = (w.toNat : Int) := by
  have hlt := w.isLt
  have h0 := h.1
  rw [BitVec.toInt_eq_toNat_cond] at h0 ⊢
  by_cases hc : 2 * w.toNat < 2 ^ 32
  · rw [if_pos hc]
  · rw [if_neg hc] at h0; omega

theorem toNat_lt {w : BitVec 32} (h : InRange w) : w.toNat < 751 := by
  have := toInt_eq_toNat h; have := h.2; omega

/-- In the label range the clamp does nothing: the class is the word's value. -/
theorem cls_val {w : BitVec 32} (h : InRange w) : (cls w).val = w.toNat := by
  have e := toInt_eq_toNat h
  have hl := toNat_lt h
  show min w.toInt.toNat 750 = w.toNat
  rw [e, Int.toNat_natCast]; omega

/-- A column number below 2³² is the label word exactly when it is the word's value. -/
theorem ofNat_eq_iff {w : BitVec 32} (c : Nat) (hc : c < 2 ^ 32) : BitVec.ofNat 32 c = w ↔ c = w.toNat := by
  constructor
  · intro e; rw [← e, BitVec.toNat_ofNat, Nat.mod_eq_of_lt hc]
  · intro e; rw [e, BitVec.ofNat_toNat, BitVec.setWidth_eq]

end Cert.CenterDist

end
-- ==== Proof.Decode.lean ====
/-
  From the precondition to the label range. The printed precondition is the conjunction of three tests, each an
  `all` over an array: every entry of `x` finite, every entry of the centers finite, and every label `l` with
  0 ≤ l and l < 751 as signed words. Its last conjunct, read at one row, is that the row's label is in the label range.
-/
import proofs.«428161_j5669356836479_3_alg».proof.Pre_finite_inputs
import proofs.«428161_j5669356836479_3_alg».proof.Proof.Spec
import Idealize.ShloMosaic.Lib.ReduceAll
import Idealize.ShloMosaic.Lib.StableHlo.Predicate

noncomputable section

namespace Cert.CenterDist

open Idealize.ShloMosaic Idealize.ShloMosaic.ValueIdx

/-- Where the precondition holds, every row's label is in the label range. -/
theorem inRange_of_pre {F : FTy → Type} [FloatOps F] [Cert.Pre_finite_inputs.Facts]
    (x : FVec F Cert.Pre_finite_inputs.S16384x2048 .f32) (lab : IVec Cert.Pre_finite_inputs.S16384 32)
    (cen : FVec F Cert.Pre_finite_inputs.S751x2048 .f32)
    (h : Cert.Pre_finite_inputs.fn (F := F) x lab cen = fun _ => 1#1) (b : Fin 16384) :
    InRange (lab (ix1 b)) := by
  -- The precondition at its one index: a conjunction whose last conjunct is the test over all the rows.
  have h0 := congrFun h ValueIdx.ix0
  dsimp only [Cert.Pre_finite_inputs.fn] at h0
  have hall := (IntOp.andi_eq_one.1 h0).2
  -- A conjunction over all rows that holds, holds at row `b`.
  haveI : Subsingleton Cert.Pre_finite_inputs.S_.Idx := ⟨fun a c => funext fun d => d.elim0⟩
  have hb := Host.reduce_andi_all _ _ _ _ _ hall (ix1 b)
  -- At row `b` the test is two signed comparisons of the label with a constant broadcast to every row.
  obtain ⟨hge, hlt⟩ := IntOp.andi_eq_one.1 hb
  have hge' : (0#32 : BitVec 32).toInt ≤ (lab (ix1 b)).toInt := IntOp.cmpi_sge.1 hge
  have hlt' : (lab (ix1 b)).toInt < (751#32 : BitVec 32).toInt := IntOp.cmpi_slt.1 hlt
  exact ⟨by simpa using hge', by simpa using hlt'⟩

end Cert.CenterDist

end
-- ==== Proof.LibGatherBatch.lean ====
/-
  A gather with one batching axis, read at an index. The operand is a [B × N] table, the start indices a
  [B × 1 × 1] array (one index per row, the index vector on the last axis), the result a [B × 1] column: the rows
  are batched (result row `b` reads operand row `b`), the column axis is collapsed and start-indexed, and there are
  no offset axes. This is what `take_along_axis` along axis 1 with one index per row prints as. Result row `b` is the
  table's row `b` at row `b`'s start index read signed and clamped into [0, N − 1].
-/
import Idealize.ShloMosaic.PureOps
import Idealize.ShloMosaic.Lib.ValueIdx

noncomputable section

namespace Cert.GatherBatch

open Idealize.ShloMosaic Idealize.ShloMosaic.ValueIdx

/-- Row `b` of the batched gather: the operand's row `b` at the clamped start index of row `b`. The hypotheses are the
    printed dimension numbers, each closed by `rfl` at a printed record. -/
theorem gather_row {α : Type} {B N w : Nat} (d : GatherDims ⟨2, ![B, N]⟩ ⟨3, ![B, 1, 1]⟩ ⟨2, ![B, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![B, N]⟩ : Shape).Idx → α) (idx : IVec ⟨3, ![B, 1, 1]⟩ w) (b : Fin B) (hN : 0 < N) :
    Host.gather d x idx (ix2 b (0 : Fin 1))
      = x (ix2 b ⟨min (idx (ix3 b (0 : Fin 1) (0 : Fin 1))).toInt.toNat (N - 1), by omega⟩) := by
  -- the gather reads the operand at the operand index: the two indices agree axis by axis, as naturals
  unfold Host.gather
  congr 1
  funext a
  refine Fin.ext ?_
  -- where each operand axis stands: axis 0 is the batching axis, axis 1 is collapsed and carries the start index;
  -- neither is kept for an offset
  have hb0 : (0 : Fin 2) ∈ d.operandBatchingDims := by rw [hob]; exact List.mem_singleton.mpr rfl
  have hb1 : (1 : Fin 2) ∉ d.operandBatchingDims := fun h => by
    rw [hob] at h; exact absurd (congrArg Fin.val (List.mem_singleton.mp h)) Nat.one_ne_zero
  have hc1 : (1 : Fin 2) ∈ d.collapsedSliceDims := by rw [hcoll]; exact List.mem_singleton.mpr rfl
  have hk0 : (0 : Fin 2) ∉ d.sKept := fun h => ((d.mem_sKept _).1 h).2 hb0
  have hk1 : (1 : Fin 2) ∉ d.sKept := fun h => ((d.mem_sKept _).1 h).1 hc1
  have hm1 : (1 : Fin 2) ∈ d.startIndexMap := by rw [hsim]; exact List.mem_singleton.mpr rfl
  match a with
  | ⟨0, _⟩ =>
    -- the row axis: no start (a batching axis is not start-indexed), no offset; the batching coordinate is the
    -- result's coordinate on its batch axis 0, the one paired with the start indices' batching axis 0, which is `b`
    show d.start _ idx 0 + d.batchCoord _ 0 + d.offCoord _ 0 = b.val
    rw [d.start_batching _ idx 0 hb0, d.offCoord_eq_zero _ 0 hk0, Nat.zero_add, Nat.add_zero]
    unfold GatherDims.batchCoord
    rw [dif_pos hb0]
    unfold GatherDims.siCoord
    simp only [Fin.val_cast]
    -- with the dimension numbers put in, the axis lists are literal lists and the positions in them compute
    obtain ⟨od, cd, ob, sb, sm, iv, ss, wf⟩ := d
    dsimp only at hoff hcoll hob hsb hsim hivd
    subst hoff hcoll hob hsb hsim hivd
    rfl
  | ⟨1, _⟩ =>
    -- the column axis: no batching coordinate, no offset; the start is the row's start index, read signed and clamped
    -- so that a slice of size 1 fits, that is into [0, N − 1]
    show d.start _ idx 1 + d.batchCoord _ 1 + d.offCoord _ 1 = min (idx (ix3 b (0 : Fin 1) (0 : Fin 1))).toInt.toNat (N - 1)
    rw [d.batchCoord_eq_zero _ 1 hb1, d.offCoord_eq_zero _ 1 hk1, Nat.add_zero]
    unfold GatherDims.start
    rw [dif_pos hm1]
    have hsl : d.sliceSizes 1 = 1 := d.slice_collapsed 1 hc1
    -- the start index is read at (b, 0, 0): the result's batch coordinates (b, 0) on the first two axes, and the
    -- component's number, 0, on the index vector's axis; the last two axes have extent 1, so only the first is a question
    have hsi : d.siIdx (ix2 b (0 : Fin 1)) ⟨List.idxOf (1 : Fin 2) d.startIndexMap, List.idxOf_lt_length_iff.2 hm1⟩
        = ix3 b (0 : Fin 1) (0 : Fin 1) := by
      funext c
      match c with
      | ⟨0, _⟩ =>
        obtain ⟨od, cd, ob, sb, sm, iv, ss, wf⟩ := d
        dsimp only at hoff hcoll hob hsb hsim hivd
        subst hoff hcoll hob hsb hsim hivd
        rfl
      | ⟨1, _⟩ => exact Subsingleton.elim (α := Fin 1) _ _
      | ⟨2, _⟩ => exact Subsingleton.elim (α := Fin 1) _ _
    rw [hsi, hsl]
    rfl

end Cert.GatherBatch

end
-- ==== Proof.RefValue.lean ====
/-
  The reference's result is the mean loss. Row by row: the distance matrix at (b, l) is
  (|x_b|² + |c_l|²) − 2 · ⟨x_b, c_l⟩; the row's label, in the label range, is not negative, so the wrap-around of
  negative indices leaves it alone, it passes the bounds test, and the gather reads column `l` of row `b`; the clip
  and the mean are the specification's.
-/
import proofs.«428161_j5669356836479_3_alg».proof.Proof.RefRead
import proofs.«428161_j5669356836479_3_alg».proof.Proof.Spec
import proofs.«428161_j5669356836479_3_alg».proof.Proof.LibGatherBatch
import Idealize.ShloMosaic.Lib.StableHlo.Predicate
import Idealize.ShloMosaic.Lib.ValueIdxRank1

noncomputable section

namespace Cert.CenterDist

open Idealize.ShloMosaic Idealize.ShloMosaic.ValueIdx Cert.ReferenceIdeal

/-- A word in the label range is below 2³¹, so its signed compares are compares of values. -/
theorem toNat_small {w : BitVec 32} (h : InRange w) : w.toNat < 2 ^ 31 := by
  have := toNat_lt h; omega

/-- The label column at row `i 0` is the row's label. -/
theorem v14_at (lab : (⟨S16384, .i32⟩ : BufTy).Contents (Elt Ideal)) (i : S16384x1.Idx) :
    ReadP.val_main_v14 (F := Ideal) lab i = lab (ix1 (i 0)) := by
  rw [ReadP.val_main_v14_apply]
  exact congrArg lab (funext fun a => by match a with | ⟨0, _⟩ => rfl)

/-- A label in the label range is not negative, so the wrap-around of negative indices leaves it alone. -/
theorem v4_at (lab : (⟨S16384, .i32⟩ : BufTy).Contents (Elt Ideal)) (hr : ∀ b : Fin 16384, InRange (lab (ix1 b)))
    (i : S16384x1.Idx) : ReadP.val_main_call0_v4 (F := Ideal) lab i = lab (ix1 (i 0)) := by
  rw [ReadP.val_main_call0_v4_apply, ReadP.val_main_call0_v1_apply, ReadP.val_main_call0_v0_apply,
    ReadP.val_main_call0_c_apply, v14_at]
  have hs := toNat_small (hr (i 0))
  have h0 : IntOp.cmpi .slt (lab (ix1 (i 0))) 0#32 = 0#1 := by
    refine eq_zero_of_ne_one fun h => ?_
    have := (StableHlo.Predicate.slt_iff_toNat hs (by decide)).1 h
    simp at this
  rw [h0, select_zero]

/-- The start-index array at (b, ·, ·) is row b's label. -/
theorem v5_at (lab : (⟨S16384, .i32⟩ : BufTy).Contents (Elt Ideal)) (hr : ∀ b : Fin 16384, InRange (lab (ix1 b)))
    (i : S16384x1x1.Idx) : ReadP.val_main_call0_v5 (F := Ideal) lab i = lab (ix1 (i 0)) := by
  rw [ReadP.val_main_call0_v5_apply, v4_at lab hr]
  refine congrArg (fun a => lab (ix1 a)) (Fin.ext ?_)
  have h1 : (i 1).val < 1 := (i 1).isLt
  have h2 : (i 2).val < 1 := (i 2).isLt
  show (((i 0).val * 1 + (i 1).val) * 1 + (i 2).val) / 1 = (i 0).val
  omega

/-- A label in the label range passes both bounds tests. -/
theorem v11_at (lab : (⟨S16384, .i32⟩ : BufTy).Contents (Elt Ideal)) (hr : ∀ b : Fin 16384, InRange (lab (ix1 b)))
    (i : S16384x1x1.Idx) : ReadP.val_main_call0_v11 (F := Ideal) lab i = 1#1 := by
  rw [ReadP.val_main_call0_v11_apply, ReadP.val_main_call0_v7_apply, ReadP.val_main_call0_v10_apply,
    ReadP.val_main_call0_v6_apply, ReadP.val_main_call0_c_2_apply, ReadP.val_main_call0_v9_apply,
    ReadP.val_main_call0_v8_apply, ReadP.val_main_call0_c_1_apply, v5_at lab hr]
  have hs := toNat_small (hr (i 0))
  have hl := toNat_lt (hr (i 0))
  have h7 : IntOp.cmpi .sge (lab (ix1 (i 0))) 0#32 = 1#1 :=
    (StableHlo.Predicate.sge_iff_toNat hs (by decide)).2 (by simp)
  have h10 : IntOp.cmpi .sle (lab (ix1 (i 0))) 750#32 = 1#1 :=
    (StableHlo.Predicate.sle_iff_toNat hs (by decide)).2 (by
      show (lab (ix1 (i 0))).toNat ≤ 750; omega)
  rw [h7, h10]; rfl

/-- A fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_one f hf l

/-- Every row's mask is set. -/
theorem v12_at (lab : (⟨S16384, .i32⟩ : BufTy).Contents (Elt Ideal)) (hr : ∀ b : Fin 16384, InRange (lab (ix1 b)))
    (j : S16384x1.Idx) : ReadP.val_main_call0_v12 (F := Ideal) lab j = 1#1 := by
  unfold ReadP.val_main_call0_v12
  rw [Host.reduce_eq_foldl]
  exact foldl_andi_one _ (v11_at lab hr) _

/-- The distance matrix at (b, l): the two squared norms, less twice the inner product. -/
theorem v13_at (x : (⟨S16384x2048, .f32⟩ : BufTy).Contents (Elt Ideal)) (cen : (⟨S751x2048, .f32⟩ : BufTy).Contents (Elt Ideal))
    (b : Fin 16384) (l : Fin 751) :
    ReadP.val_main_v13 (F := Ideal) x cen (ix2 b l)
      = ((∑ k : Fin 2048, x (ix2 b k) * x (ix2 b k)) + cenSq cen l) - two * ∑ k : Fin 2048, x (ix2 b k) * cen (ix2 l k) := by
  have e1 : ∀ k, ReadP.idx_main_v1 (ReadP.idx_main_v2 (ReadP.idx_main_v6 (ix2 b l))) k = ix2 b k :=
    fun k => funext fun a => by match a with | ⟨0, _⟩ => rfl | ⟨1, _⟩ => rfl
  have e4 : ∀ k, ReadP.idx_main_v4 (ReadP.idx_main_v5 (ReadP.idx_main_v7 (ix2 b l))) k = ix2 l k :=
    fun k => funext fun a => by match a with | ⟨0, _⟩ => rfl | ⟨1, _⟩ => rfl
  have el : ∀ k, ReadP.lidx_main_v10 (ix2 b l) k = ix2 b k :=
    fun k => funext fun a => by match a with | ⟨0, _⟩ => rfl | ⟨1, _⟩ => rfl
  have er : ∀ k, ReadP.idx_main_v9 (ReadP.ridx_main_v10 (ix2 b l) k) = ix2 l k :=
    fun k => funext fun a => by match a with | ⟨0, _⟩ => rfl | ⟨1, _⟩ => rfl
  rw [ReadP.val_main_v13_apply, ReadP.val_main_v8_apply, ReadP.val_main_v6_apply, ReadP.val_main_v2_apply,
    ReadP.val_main_v1_apply, ReadP.val_main_v7_apply, ReadP.val_main_v5_apply, ReadP.val_main_v4_apply,
    ReadP.val_main_v12_apply, ReadP.val_main_v11_apply, ReadP.val_main_cst_1_apply, ReadP.val_main_v10_apply,
    ReadP.val_main_cst_apply, ReadP.val_main_cst_0_apply]
  simp only [ReadP.val_main_v0_apply, ReadP.val_main_v3_apply, ReadP.val_main_v9_apply, e1, e4, el, er,
    Ideal.mulf_def, Ideal.addf_def, Ideal.subf_def, Ideal.ofBits_def, Ideal.ofBits_zero_f32, zero_add]
  rfl

/-- The gather reads column `cls` of the row's own row of the distance matrix. -/
theorem gather_at (x : (⟨S16384x2048, .f32⟩ : BufTy).Contents (Elt Ideal)) (lab : (⟨S16384, .i32⟩ : BufTy).Contents (Elt Ideal))
    (cen : (⟨S751x2048, .f32⟩ : BufTy).Contents (Elt Ideal)) (hr : ∀ b : Fin 16384, InRange (lab (ix1 b))) (b : Fin 16384) :
    ReadP.val_main_call0_v13 (F := Ideal) x lab cen (ix2 b (0 : Fin 1))
      = ReadP.val_main_v13 (F := Ideal) x cen (ix2 b (cls (lab (ix1 b)))) := by
  unfold ReadP.val_main_call0_v13
  rw [Cert.GatherBatch.gather_row (B := 16384) (N := 751) gather_S16384x751_S16384x1x1_S16384x1_n_1_0_0_1_2_11
    rfl rfl rfl rfl rfl rfl _ _ b (by decide)]
  refine congrArg (fun c => ReadP.val_main_v13 (F := Ideal) x cen (ix2 b c)) (Fin.ext ?_)
  show min (ReadP.val_main_call0_v5 (F := Ideal) lab (ix3 b 0 0)).toInt.toNat (751 - 1) = min (lab (ix1 b)).toInt.toNat 750
  rw [v5_at lab hr]

/-- Row b's clipped term is the specification's, at the class its label names. -/
theorem row_value (x : (⟨S16384x2048, .f32⟩ : BufTy).Contents (Elt Ideal)) (lab : (⟨S16384, .i32⟩ : BufTy).Contents (Elt Ideal))
    (cen : (⟨S751x2048, .f32⟩ : BufTy).Contents (Elt Ideal)) (hr : ∀ b : Fin 16384, InRange (lab (ix1 b))) (b : Fin 16384) :
    ReadP.val_main_v17 (F := Ideal) x lab cen (ix1 b) = rowTerm x cen b (cls (lab (ix1 b))) := by
  have e16 : ReadP.idx_main_v16 (ix1 b) = ix2 b (0 : Fin 1) :=
    funext fun a => Fin.ext (by match a with | ⟨0, _⟩ => exact Nat.div_one _ | ⟨1, _⟩ => rfl)
  rw [ReadP.val_main_v17_apply, ReadP.val_main_call1_v4_apply, ReadP.val_main_call1_v3_apply,
    ReadP.val_main_cst_3_apply, ReadP.val_main_call1_v2_apply, ReadP.val_main_call1_v1_apply,
    ReadP.val_main_call1_v0_apply, ReadP.val_main_cst_2_apply, ReadP.val_main_v16_apply, e16,
    ReadP.val_main_v15_apply, v12_at lab hr, select_one, gather_at x lab cen hr, v13_at]
  rfl

/-- A sum over the row indices is the sum over the rows. -/
theorem sum_rows {M : Type} [AddCommMonoid M] {n : Nat} (f : (⟨1, ![n]⟩ : Shape).Idx → M) : ∑ j, f j = ∑ b : Fin n, f (ix1 b) :=
  (Equiv.sum_comp (idxEquiv1 (n := n)).symm f).symm

/-- With every label in the label range, the reference's last stage is the mean loss of its three arguments. -/
theorem ref_value (x : (⟨S16384x2048, .f32⟩ : BufTy).Contents (Elt Ideal)) (lab : (⟨S16384, .i32⟩ : BufTy).Contents (Elt Ideal))
    (cen : (⟨S751x2048, .f32⟩ : BufTy).Contents (Elt Ideal)) (hr : ∀ b : Fin 16384, InRange (lab (ix1 b))) :
    Cert.ReferenceIdeal.ReadP.val_main_v19 (F := Ideal) x lab cen = fun _ => meanLoss x lab cen := by
  funext i
  have hsum : ∑ j : S16384.Idx, ReadP.val_main_v17 (F := Ideal) x lab cen j
      = ∑ b : Fin 16384, rowTerm x cen b (cls (lab (ix1 b))) := by
    rw [sum_rows]
    exact Finset.sum_congr rfl fun b _ => row_value x lab cen hr b
  rw [ReadP.val_main_v19_apply, ReadP.val_main_v18_apply, hsum, ReadP.val_main_cst_4_apply, ReadP.val_main_cst_5_apply]
  show Ideal.div (Ideal.ofBits .f32 0x00000000#32 + _) _ = _
  rw [Ideal.ofBits_zero_f32, zero_add]
  rfl

end Cert.CenterDist

end
-- ==== Proof.Payload.lean ====
/-
  What the kernel body stores, read at one row of its block. The body multiplies the block of `x` by the transposed
  (padded) centers, keeps in each row the one column whose number is the row's label (a compare against the column
  numbers, a select against zero, a sum along the row: the zeros add nothing), and combines it with the row's squared
  norm and the gathered squared norm of the label's center: (|x_r|² + s_r) − 2 · ⟨x_r, c_n⟩, clipped.
-/
import proofs.«428161_j5669356836479_3_alg».proof.Proof.Gen.KernelIdeal.Skeleton
import proofs.«428161_j5669356836479_3_alg».proof.Proof.Spec
import Idealize.ShloMosaic.Lib.Pipeline.Value
import Idealize.ShloMosaic.Lib.ValueLayout

noncomputable section

namespace Cert.CenterDist

open Idealize.ShloMosaic Idealize.ShloMosaic.ValueIdx Cert.KernelIdeal Cert.KernelIdeal.Gen

namespace Pay

/-! ## Each operation that is not pointwise, read at one coordinate -/

/-- A sum along the second axis of a two-axis array, read at row `r`: the sum of that row's entries, nothing added
    in front of it. -/
theorem laneSum_apply {m n : Nat} (v : FVec Ideal ⟨2, ![m, n]⟩ .f32)
    (h : (⟨2, ![m, n]⟩ : Shape).Reduces [1] ⟨1, ![m]⟩) (r : Fin m) :
    multiReduction (F := Ideal) .add [1] ⟨1, ![m]⟩ v 0x00000000#32 h (.inl rfl) rfl (ix1 r)
      = ∑ k : Fin n, v (ix2 r k) := by
  refine (Ideal.multiReduction_add_single v _ h (.inl rfl) rfl (ix1 r)).trans ?_
  refine Finset.sum_congr rfl fun k _ => congrArg v ?_
  funext a
  match a with
  | ⟨0, _⟩ => rfl
  | ⟨1, _⟩ => rfl

/-- A vector of length `m` viewed as one column of height `m`: entry (r, 0) is entry r, the two having the same
    row-major position r = r · 1 + 0. -/
theorem colCast_apply {m : Nat} {α : Type} (v : (⟨1, ![m]⟩ : Shape).Idx → α)
    (h : (⟨1, ![m]⟩ : Shape).ShapeCasts ⟨2, ![m, 1]⟩) (r : Fin m) :
    shapeCast ⟨2, ![m, 1]⟩ v h (ix2 r (0 : Fin 1)) = v (ix1 r) := by
  refine shapeCast_apply v h (ix2 r (0 : Fin 1)) (ix1 r) ?_
  rw [Shape.rowMajor_val_one, Shape.rowMajor_val_two]
  show r.val = r.val * 1 + 0
  omega

/-- The transpose of a two-axis array: entry (a, b) is the operand's entry (b, a). -/
theorem transpose2_apply {m n : Nat} {α : Type} (v : (⟨2, ![m, n]⟩ : Shape).Idx → α)
    (h : (⟨2, ![m, n]⟩ : Shape).Transposes [1, 0] ⟨2, ![n, m]⟩) (a : Fin n) (b : Fin m) :
    transpose ⟨2, ![n, m]⟩ [1, 0] v h (ix2 a b) = v (ix2 b a) :=
  transpose_apply [1, 0] v h (ix2 a b) (ix2 b a) (fun c => match c with
    | ⟨0, _⟩ => rfl
    | ⟨1, _⟩ => rfl)

/-- A column repeated along the rows' 768 positions: entry (r, c) is the column's entry (r, 0). -/
theorem bcastCol_apply {α : Type} (v : S1024x1.Idx → α) (h : S1024x1.Broadcasts S1024x768) (r : Fin 1024) (c : Fin 768) :
    broadcastTo S1024x768 v h (ix2 r c) = v (ix2 r (0 : Fin 1)) :=
  broadcastTo_apply v h (ix2 r c) (ix2 r (0 : Fin 1)) (fun a => match a with
    | ⟨0, _⟩ => rfl
    | ⟨1, _⟩ => rfl)

/-- Choosing by the one-bit result of a comparison of two words for equality is the `if` on their equality. -/
theorem select_cmpi_eq {α : Type} (a b : BitVec 32) (u w : α) :
    Scalar.select (IntOp.cmpi .eq a b) u w = if a = b then u else w := by
  show (if BitVec.ofBool (a == b) = 1 then u else w) = _
  by_cases h : a = b
  · subst h; rw [if_pos rfl, beq_self_eq_true]; exact if_pos rfl
  · rw [if_neg h, beq_eq_false_iff_ne.2 h]; exact if_neg (by decide)

/-- Two column numbers below 768 have the same 32-bit word exactly when they are the same column: both are below
    2³², where a number is recovered from its word. -/
theorem colWord_eq_iff (c n : Fin 768) : BitVec.ofNat 32 c.val = BitVec.ofNat 32 n.val ↔ c = n := by
  have hc : c.val < 2 ^ 32 := by have := c.isLt; omega
  have hn : n.val < 2 ^ 32 := by have := n.isLt; omega
  constructor
  · intro e
    have e' := congrArg BitVec.toNat e
    rw [BitVec.toNat_ofNat, BitVec.toNat_ofNat, Nat.mod_eq_of_lt hc, Nat.mod_eq_of_lt hn] at e'
    exact Fin.ext e'
  · intro e; rw [e]

/-- Keeping one column. In row `r`, entry c of the array `g` is kept where the word of the column number c is the
    row's label word and replaced by zero elsewhere; when the label word is the word of column `n`, the row is
    g (r, n) at c = n and zero at every other c, so its sum is g (r, n). -/
theorem keepCol_apply (lab : IVec S1024x1 32) (g : FVec Ideal S1024x768 .f32) (r : Fin 1024) (n : Fin 768)
    (hn : lab (ix2 r (0 : Fin 1)) = BitVec.ofNat 32 n.val) :
    ∑ c : Fin 768, select (cmpi .eq (iota .tc S1024x768 32 [1] iota_S1024x768_d1_w32)
        (broadcastTo S1024x768 lab broadcasts_S1024x1_S1024x768)) g
        (broadcast S1024x768 (FloatOps.ofBits (F := Ideal) .f32 0x00000000#32)) (ix2 r c) = g (ix2 r n) := by
  have hq : ∀ c : Fin 768, select (cmpi .eq (iota .tc S1024x768 32 [1] iota_S1024x768_d1_w32)
        (broadcastTo S1024x768 lab broadcasts_S1024x1_S1024x768)) g
        (broadcast S1024x768 (FloatOps.ofBits (F := Ideal) .f32 0x00000000#32)) (ix2 r c)
      = if c = n then g (ix2 r c) else 0 := by
    intro c
    rw [select_apply, broadcast_apply]
    show Scalar.select (IntOp.cmpi .eq (iota .tc S1024x768 32 [1] iota_S1024x768_d1_w32 (ix2 r c))
      (broadcastTo S1024x768 lab broadcasts_S1024x1_S1024x768 (ix2 r c))) _ _ = _
    -- the column numbers read c at (r, c); the repeated label column reads the row's label word
    rw [iota_single_apply, bcastCol_apply, hn, select_cmpi_eq]
    show (if BitVec.ofNat 32 c.val = BitVec.ofNat 32 n.val then g (ix2 r c) else Ideal.ofBits .f32 0x00000000#32) = _
    rw [Ideal.ofBits_zero_f32]
    by_cases h : c = n
    · rw [if_pos h, if_pos ((colWord_eq_iff c n).2 h)]
    · rw [if_neg h, if_neg (mt (colWord_eq_iff c n).1 h)]
  rw [Finset.sum_congr rfl fun c _ => hq c, Finset.sum_ite_eq' Finset.univ n fun c => g (ix2 r c)]
  exact if_pos (Finset.mem_univ n)

/-! ## The product of the block by the transposed centers, read at an entry -/

/-- The product's dimension numbers: the left operand's axis 1 against the right operand's axis 0. -/
abbrev mmD := dot_S1024x2048_S2048x768_S1024x768_1_0_0_1_n_n

/-- The left operand is read at the result's row … -/
theorem mm_lhs_0 (i : S1024x768.Idx) (q : mmD.contr.Idx) : (mmD.lhsIdx i q 0).val = (i 0).val := by
  unfold DotDims.lhsIdx
  rw [dif_neg (show ¬(0 : Fin S1024x2048.rank) ∈ mmD.lhsBatch by decide),
    dif_pos (show (0 : Fin S1024x2048.rank) ∈ mmD.lhsNonContracting by decide)]
  rfl
/-- … and at the contracted position; -/
theorem mm_lhs_1 (i : S1024x768.Idx) (q : mmD.contr.Idx) : (mmD.lhsIdx i q 1).val = (q ⟨0, by decide⟩).val :=
  mmD.lhsIdx_val_of_single rfl i q
/-- the right operand at the contracted position … -/
theorem mm_rhs_0 (i : S1024x768.Idx) (q : mmD.contr.Idx) : (mmD.rhsIdx i q 0).val = (q ⟨0, by decide⟩).val :=
  mmD.rhsIdx_val_of_single rfl i q
/-- … and at the result's column. -/
theorem mm_rhs_1 (i : S1024x768.Idx) (q : mmD.contr.Idx) : (mmD.rhsIdx i q 1).val = (i 1).val := by
  unfold DotDims.rhsIdx
  rw [dif_neg (show ¬(1 : Fin S2048x768.rank) ∈ mmD.rhsBatch by decide),
    dif_pos (show (1 : Fin S2048x768.rank) ∈ mmD.rhsNonContracting by decide)]
  rfl

/-- Accumulated from zero, entry (r, c) of the product is ∑ₖ a (r, k) · b (k, c): the sum over the one contracted
    axis, re-indexed by that axis's 2048 positions. -/
theorem mm_apply (a : FVec Ideal S1024x2048 .bf16) (b : FVec Ideal S2048x768 .bf16) (r : Fin 1024) (c : Fin 768) :
    matmul mmD none a b (constant (F := Ideal) S1024x768 .f32 0x00000000#32) (ix2 r c)
      = ∑ k : Fin 2048, a (ix2 r k) * b (ix2 k c) := by
  refine (Ideal.matmul_constant_zero_apply mmD none a b (ix2 r c)).trans ?_
  rw [← Equiv.sum_comp (contrEquiv1 mmD 2048 rfl rfl).symm]
  refine Finset.sum_congr rfl fun k _ => ?_
  have hk := contrEquiv1_symm_val mmD 2048 rfl rfl k
  have el : mmD.lhsIdx (ix2 r c) ((contrEquiv1 mmD 2048 rfl rfl).symm k) = ix2 r k := funext fun x => Fin.ext (by
    match x with
    | ⟨0, _⟩ => exact mm_lhs_0 _ _
    | ⟨1, _⟩ => exact (mm_lhs_1 _ _).trans hk)
  have er : mmD.rhsIdx (ix2 r c) ((contrEquiv1 mmD 2048 rfl rfl).symm k) = ix2 k c := funext fun x => Fin.ext (by
    match x with
    | ⟨0, _⟩ => exact (mm_rhs_0 _ _).trans hk
    | ⟨1, _⟩ => exact mm_rhs_1 _ _)
  rw [el, er]

end Pay

open Pay

/-! ## The stored value at a row -/

/-- Row `r` of the stored block, when the row's label word is the column number `n`. -/
theorem pay_apply (x0 : Vec Ideal S1024x2048 .f32) (x1 : Vec Ideal S768x2048 .bf16) (x2 : Vec Ideal S1024x1 .i32)
    (x3 : Vec Ideal S1024x1 .f32) (r : Fin 1024) (n : Fin 768) (hn : x2 (ix2 r 0) = BitVec.ofNat 32 n.val) :
    k0_pay1 (F := Ideal) x0 x1 x2 x3 (ix2 r 0)
      = min hi (max lo (((∑ k : Fin 2048, x0 (ix2 r k) * x0 (ix2 r k)) + x3 (ix2 r 0))
          - two * ∑ k : Fin 2048, x0 (ix2 r k) * x1 (ix2 n k))) := by
  unfold k0_pay1
  -- the pointwise operations, outermost first: the two clips, the difference, the sum, the product by two
  simp only [minimumf_apply, maximumf_apply, subf_apply, addf_apply, mulf_apply, broadcast_apply, shapeCast_self]
  -- the two column views of row sums; the second row sum keeps the label's column of the product alone
  rw [colCast_apply, colCast_apply, laneSum_apply, laneSum_apply, keepCol_apply x2 _ r n hn, mm_apply]
  -- the transposed centers at (k, n) are the centers at (n, k); the narrowing of `x` changes no value
  have ht : ∀ k : Fin 2048,
      transpose S2048x768 [1, 0] x1 transposes_S768x2048_p1_0_S2048x768 (ix2 k n) = x1 (ix2 n k) :=
    fun k => transpose2_apply x1 _ k n
  simp only [mulf_apply, truncf_apply, ht]
  -- what is left differs only in the names of the three literals
  rfl

end Cert.CenterDist

end
-- ==== Proof.Entry.lean ====
/-
  The three arrays the host lines before the region prepare, as the region finds them, read at an index: the centers
  padded with seventeen zero rows (and narrowed, which changes nothing over the extended reals); the labels clipped
  into [0, 750] and kept as a column, which for a label in the label range is the label; and the squared norm of each
  row's label's center, gathered from the 751 squared norms and kept as a column.
-/
import proofs.«428161_j5669356836479_3_alg».proof.Proof.Gen.KernelIdeal.Frame
import proofs.«428161_j5669356836479_3_alg».proof.Proof.Spec
import Idealize.ShloMosaic.Lib.StableHlo.Run
import Idealize.ShloMosaic.Lib.StableHlo.Predicate
import Idealize.ShloMosaic.Lib.KernelVsHost

noncomputable section

namespace Cert.CenterDist

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- Core `c`'s three argument arrays. -/
abbrev xArr (c : Dev nD) : S16384x2048.Idx → EReal := m ((c : Thread nD τ).loc main_arg0)
abbrev labArr (c : Dev nD) : S16384.Idx → BitVec 32 := m ((c : Thread nD τ).loc main_arg1)
abbrev cenArr (c : Dev nD) : S751x2048.Idx → EReal := m ((c : Thread nD τ).loc main_arg2)

/-! ## The three arrays as terms of the arguments -/

/-- The labels clipped into [0, 750]. -/
def clipLab (c : Dev nD) : S16384.Idx → BitVec 32 :=
  minsi (broadcastInDim S16384 ![] bcast_S_S16384 (constantI S_ 32 750#32))
    (maxsi (broadcastInDim S16384 ![] bcast_S_S16384 (constantI S_ 32 0#32)) (labArr m c))

/-- The squared norm of each center: the row sums of the centers' squares. -/
def cenSqVec (c : Dev nD) : S751.Idx → EReal :=
  Host.reduceAdd (F := Ideal) (mulf (F := Ideal) (cenArr m c) (cenArr m c)) (constant (F := Ideal) S_ .f32 0x00000000#32) reducesTo_S751x2048_S751_d1 h_S_

/-- The gather's start indices: a negative clipped label moved up by 751, as a column. -/
def startIdx (c : Dev nD) : S16384x1.Idx → BitVec 32 :=
  broadcastInDim S16384x1 ![0] bcast_S16384_S16384x1_0
    (select (cmpi .slt (clipLab m c) (broadcastInDim S16384 ![] bcast_S_S16384 (constantI S_ 32 0#32)))
      (addi (clipLab m c) (broadcastInDim S16384 ![] bcast_S_S16384 (constantI S_ 32 751#32))) (clipLab m c))

/-! ## Words in the label range -/

/-- A rank-1 index named by its coordinate, in the other spelling. -/
theorem ofFin_eq_ix1 {n : Nat} (p : Fin n) : Shape.Idx.ofFin p = ix1 p := by
  funext d
  match d with
  | ⟨0, _⟩ => exact Fin.ext rfl

/-- A word in the label range is its own clip into [0, 750]: it is not below 0, and 750 is not below it. -/
theorem clip_word {l : BitVec 32} (h : InRange l) : IntOp.minsi 750#32 (IntOp.maxsi 0#32 l) = l := by
  have h0 : (0#32 : BitVec 32).toInt = 0 := by decide
  have h750 : (750#32 : BitVec 32).toInt = 750 := by decide
  have hmax : IntOp.maxsi 0#32 l = l := by
    unfold IntOp.maxsi
    rw [if_neg]
    simp only [BitVec.slt, h0, decide_eq_true_eq]
    have := h.1
    omega
  rw [hmax]
  unfold IntOp.minsi
  rw [if_neg]
  simp only [BitVec.slt, h750, decide_eq_true_eq]
  have := h.2
  omega

/-- A word in the label range is not negative: the signed comparison with 0 gives the bit 0. -/
theorem not_neg_word {l : BitVec 32} (h : InRange l) : IntOp.cmpi .slt l 0#32 = 0#1 := by
  have h0 : (0#32 : BitVec 32).toInt = 0 := by decide
  have hf : l.slt 0#32 = false := by
    simp only [BitVec.slt, h0, decide_eq_false_iff_not]
    have := h.1
    omega
  unfold IntOp.cmpi
  simp only [hf]
  rfl

/-! ## The padded centers -/

/-- The padded and narrowed centers, as a term of the centers. -/
theorem V_main_v1_eq (c : Dev nD) : (V m c main_v1 : S768x2048.Idx → EReal)
    = truncf (F := Ideal) .bf16 (pad S768x2048 ![0, 0] ![17, 0] ![0, 0] (cenArr m c) (sitofp (F := Ideal) .f32 (constantI S_ 32 0#32)) pads_S751x2048_S768x2048_0170_000 h_S_) bitsLt_bf16_f32 := by
  dsimp only [V, V0]
  simp only [hostOps0, hostOps0_1, hostOps0_2, hostOps0_3, hostOps0_4, List.flatten_cons, List.flatten_nil, List.append_nil, List.cons_append, List.nil_append]
  after_results
  rfl

/-- The padded centers: the centers on the first 751 rows, zero below. -/
theorem entry_cen (c : Dev nD) (n : Fin 768) (k : Fin 2048) :
    (V m c main_v1 : S768x2048.Idx → EReal) (ix2 n k)
      = if h : n.val < 751 then cenArr m c (ix2 ⟨n.val, h⟩ k) else 0 := by
  rw [V_main_v1_eq, truncf_apply]
  by_cases h : n.val < 751
  · rw [dif_pos h]
    refine pad_apply_of_inside _ _ _ _ _ pads_S751x2048_S768x2048_0170_000 h_S_ (ix2 n k) (ix2 ⟨n.val, h⟩ k) (fun a => ?_)
    match a with
    | ⟨0, _⟩ => show n.val = 0 + n.val * (0 + 1); omega
    | ⟨1, _⟩ => show k.val = 0 + k.val * (0 + 1); omega
  · rw [dif_neg h, pad_apply_of_not_inside _ _ _ _ _ pads_S751x2048_S768x2048_0170_000 h_S_ (ix2 n k) (0 : Fin 2) (by
      intro hin
      have h2 : (n.val - 0) / (0 + 1) < 751 := hin.2.2
      simp only [Nat.sub_zero, Nat.zero_add, Nat.div_one] at h2
      exact h h2)]
    exact sitofp_zero (φ := .f32)

/-! ## The clipped labels -/

/-- The clipped labels, kept as a column, as a term of the labels. -/
theorem V_main_v13_eq (c : Dev nD) : (V m c main_v13 : S16384x1.Idx → BitVec 32)
    = shapeCast S16384x1 (clipLab m c) shapeCasts_S16384_S16384x1 := by
  dsimp only [V, V0]
  simp only [hostOps0, hostOps0_1, hostOps0_2, hostOps0_3, hostOps0_4, List.flatten_cons, List.flatten_nil, List.append_nil, List.cons_append, List.nil_append]
  after_results
  rfl

/-- Row `b` of a [16384 × 1] column is position `b` of the vector it was reshaped from. -/
theorem column_apply {α : Type} (v : S16384.Idx → α) (b : Fin 16384) :
    shapeCast S16384x1 v shapeCasts_S16384_S16384x1 (ix2 b 0) = v (ix1 b) :=
  shapeCast_apply v shapeCasts_S16384_S16384x1 (ix2 b 0) (ix1 b) (by
    rw [Shape.rowMajor_val_one, Shape.rowMajor_val_two]
    show b.val = b.val * 1 + 0
    omega)

/-- The clipped label at a row is the label's clip; in the label range, the label. -/
theorem clipLab_apply (c : Dev nD) (b : Fin 16384) (hr : InRange (labArr m c (ix1 b))) :
    clipLab m c (ix1 b) = labArr m c (ix1 b) := by
  show IntOp.minsi 750#32 (IntOp.maxsi 0#32 (labArr m c (ix1 b))) = labArr m c (ix1 b)
  exact clip_word hr

/-- The clipped labels as a column: a label in the label range is kept. -/
theorem entry_lab (c : Dev nD) (b : Fin 16384) (hr : InRange (labArr m c (ix1 b))) :
    (V m c main_v13 : S16384x1.Idx → BitVec 32) (ix2 b 0) = labArr m c (ix1 b) := by
  rw [V_main_v13_eq, column_apply, clipLab_apply m c b hr]

/-! ## The gathered squared norms -/

set_option maxHeartbeats 1000000 in
/-- The gathered squared norms, kept as a column, as a term of the centers and the labels. -/
theorem V_main_v12_eq (c : Dev nD) : (V m c main_v12 : S16384x1.Idx → EReal)
    = shapeCast S16384x1 (Host.gather gather_S751_S16384x1_S16384_n_0_n_n_0_1_1 (cenSqVec m c) (startIdx m c))
        shapeCasts_S16384_S16384x1 := by
  dsimp only [V, V0]
  simp only [hostOps0, hostOps0_1, hostOps0_2, hostOps0_3, hostOps0_4, List.flatten_cons, List.flatten_nil, List.append_nil, List.cons_append, List.nil_append]
  after_results
  rfl

/-- The row sums of the centers' squares, read at a class: that class's squared norm. -/
theorem cenSqVec_apply (c : Dev nD) (l : Fin 751) : cenSqVec m c (ix1 l) = cenSq (cenArr m c) l := by
  unfold cenSqVec cenSq
  simp only [Host.reduceAdd, Ideal.hostReduceAdd_def]
  rw [Ideal.hostReduceAdd_single reducesTo_S751x2048_S751_d1 (by decide)]
  show Ideal.ofBits .f32 0x00000000#32 + _ = _
  rw [Ideal.ofBits_zero_f32, zero_add]
  refine Finset.sum_congr rfl fun k _ => ?_
  have e : (by decide : S751x2048.Reduces [1] S751).lift (ix1 l) k = ix2 l k := by
    funext a
    match a with
    | ⟨0, _⟩ => exact Fin.ext rfl
    | ⟨1, _⟩ => exact Fin.ext rfl
  rw [e]
  rfl

/-- The start index of row `b`: the clipped label, which in the label range is the label and is not negative. -/
theorem startIdx_apply (c : Dev nD) (b : Fin 16384) (hr : InRange (labArr m c (ix1 b))) :
    startIdx m c (StableHlo.Predicate.ixP b) = labArr m c (ix1 b) := by
  unfold startIdx
  rw [StableHlo.Predicate.bcast_col1, ofFin_eq_ix1]
  show Scalar.select (IntOp.cmpi .slt (clipLab m c (ix1 b)) 0#32) (IntOp.addi (clipLab m c (ix1 b)) 751#32) (clipLab m c (ix1 b))
    = labArr m c (ix1 b)
  rw [clipLab_apply m c b hr, not_neg_word hr, select_zero]

/-- The gather at row `b` reads the squared norms at the start index clamped into the 751 classes, which is the label's
    class. -/
theorem gather_row (c : Dev nD) (b : Fin 16384) (hr : InRange (labArr m c (ix1 b))) :
    Host.gather gather_S751_S16384x1_S16384_n_0_n_n_0_1_1 (cenSqVec m c) (startIdx m c) (ix1 b)
      = cenSqVec m c (ix1 (cls (labArr m c (ix1 b)))) := by
  have hg := StableHlo.Predicate.gather_take (N := 751) (n := 16384) (w := 32) gather_S751_S16384x1_S16384_n_0_n_n_0_1_1 rfl rfl rfl rfl
    (cenSqVec m c) (startIdx m c) b (by decide)
  rw [ofFin_eq_ix1, ofFin_eq_ix1] at hg
  rw [hg]
  refine congrArg (cenSqVec m c) (congrArg ix1 (Fin.ext ?_))
  show min (startIdx m c (StableHlo.Predicate.ixP b)).toInt.toNat (751 - 1) = min (labArr m c (ix1 b)).toInt.toNat 750
  rw [startIdx_apply m c b hr]

/-- The gathered squared norms as a column: row `b` holds the squared norm of its label's center. -/
theorem entry_csq (c : Dev nD) (b : Fin 16384) (hr : InRange (labArr m c (ix1 b))) :
    (V m c main_v12 : S16384x1.Idx → EReal) (ix2 b 0) = cenSq (cenArr m c) (cls (labArr m c (ix1 b))) := by
  rw [V_main_v12_eq, column_apply, gather_row m c b hr]
  exact cenSqVec_apply m c (cls (labArr m c (ix1 b)))

end Cert.CenterDist

end
-- ==== Proof.KernelValue.lean ====
/-
  The kernel's run with its result named. Each grid point `t` handles rows 1024·t … 1024·t + 1023: its blocks are
  those rows of `x`, of the clipped labels and of the gathered squared norms, and all of the padded centers; what it
  stores in row `r` of its output block is the clipped squared distance of row 1024·t + r to its label's center
  (the row's label, in the label range, is a column number below 751, where the padded centers are the centers). The
  sixteen blocks tile the output column, so the column ends holding every row's term; the lines after the region add
  the column up and divide by the row count: the mean loss.
-/
import proofs.«428161_j5669356836479_3_alg».proof.Proof.Gen.KernelIdeal.Frame
import proofs.«428161_j5669356836479_3_alg».proof.Proof.Spec
import proofs.«428161_j5669356836479_3_alg».proof.Proof.Payload
import proofs.«428161_j5669356836479_3_alg».proof.Proof.Entry
import Idealize.ShloMosaic.Lib.Pipeline.Value
import Idealize.ShloMosaic.Lib.StableHlo.Run
import Idealize.ShloMosaic.Lib.ValueIdx
import Idealize.ShloMosaic.PureOps.Ideal.Laws

set_option maxRecDepth 16384

noncomputable section

namespace Cert.CenterDist

open Idealize.ShloMosaic Idealize.ShloMosaic.TcCoe Idealize.ShloMosaic.ValueIdx Idealize.SL.Sem
open Idealize.ShloMosaic.Pipeline (Dat)
open Cert.KernelIdeal Cert.KernelIdeal.Gen

/-! ## One row of one block, over plain arrays -/

/-- If a point's four blocks hold, at row `r`, row `b` of `x`, the padded centers, row `b`'s label (in the label
    range) and the squared norm of that label's center, the body stores row `b`'s term of the mean loss. -/
theorem row_of_blocks (x : S16384x2048.Idx → EReal) (lab : S16384.Idx → BitVec 32) (cen : S751x2048.Idx → EReal)
    (x0 : Vec Ideal S1024x2048 .f32) (x1 : Vec Ideal S768x2048 .bf16) (x2 : Vec Ideal S1024x1 .i32) (x3 : Vec Ideal S1024x1 .f32)
    (b : Fin 16384) (r : Fin 1024) (hl : InRange (lab (ix1 b)))
    (h0 : ∀ k : Fin 2048, x0 (ix2 r k) = x (ix2 b k))
    (h1 : ∀ (n : Fin 768) (k : Fin 2048), x1 (ix2 n k) = if h : n.val < 751 then cen (ix2 ⟨n.val, h⟩ k) else 0)
    (h2 : x2 (ix2 r 0) = lab (ix1 b))
    (h3 : x3 (ix2 r 0) = cenSq cen (cls (lab (ix1 b)))) :
    k0_pay1 (F := Ideal) x0 x1 x2 x3 (ix2 r 0) = rowTerm x cen b (cls (lab (ix1 b))) := by
  have hlt : (lab (ix1 b)).toNat < 751 := toNat_lt hl
  have hn : x2 (ix2 r 0) = BitVec.ofNat 32 (⟨(lab (ix1 b)).toNat, by omega⟩ : Fin 768).val := by
    rw [h2]; show lab (ix1 b) = BitVec.ofNat 32 (lab (ix1 b)).toNat
    rw [BitVec.ofNat_toNat, BitVec.setWidth_eq]
  have hc : cls (lab (ix1 b)) = ⟨(lab (ix1 b)).toNat, hlt⟩ := Fin.ext (cls_val hl)
  -- below row 751 the padded centers are the centers: the label's column is such a row
  have h1' : ∀ k : Fin 2048, x1 (ix2 (⟨(lab (ix1 b)).toNat, by omega⟩ : Fin 768) k) = cen (ix2 ⟨(lab (ix1 b)).toNat, hlt⟩ k) :=
    fun k => (h1 _ k).trans (dif_pos hlt)
  rw [pay_apply x0 x1 x2 x3 r ⟨(lab (ix1 b)).toNat, by omega⟩ hn, h3, hc]
  unfold rowTerm
  simp only [h0, h1']

/-! ## The blocks of a point, as rows of the arrays -/

variable (m : (ℓ : Loc nD τ sig) → Buf (Elt Ideal) ℓ) (ρ : Dev nD → PrngReg)

theorem hz : (![0, 0] : Fin 2 → Nat) = fun _ => 0 := funext fun a => by fin_cases a <;> rfl

/-- The index maps over the sixteen points: the row windows move with the point along axis 0, the padded centers'
    window stays put. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 16 := lt_of_lt_of_eq t.isLt (show cfg0.N = 16 from N_0)

/-- The row of the arrays that row `r` of point `t`'s blocks is. -/
def rowAt (t : Fin cfg0.N) (r : Fin 1024) : Fin 16384 := ⟨1024 * t.val + r.val, by have := point_lt t; omega⟩

/-- Point `t`'s block of `x` is rows 1024·t … of `x`. -/
theorem blk_x (c : Dev nD) (t : Fin cfg0.N) (r : Fin 1024) (k : Fin 2048) :
    (iblk m c 0 t : Vec Ideal S1024x2048 .f32) (ix2 r k) = xArr m c (ix2 (rowAt t r) k) := by
  obtain ⟨e0, e1, -⟩ := idx_facts t
  unfold iblk
  rw [View.read_apply]
  show V m c main_arg0 _ = m (c.tc.loc main_arg0) _
  rw [V_main_arg0 m c]
  congr 1
  funext a
  apply Fin.ext
  match a with
  | ⟨0, _⟩ => show win0_0.index t 0 * 1024 + 1 * r.val = 1024 * t.val + r.val; rw [e0]; omega
  | ⟨1, _⟩ => show win0_0.index t 1 * 2048 + 1 * k.val = k.val; rw [e1]; omega

/-- Every point's block of the padded centers is all of them. -/
theorem blk_cen (c : Dev nD) (t : Fin cfg0.N) (n : Fin 768) (k : Fin 2048) :
    (iblk m c 1 t : Vec Ideal S768x2048 .bf16) (ix2 n k)
      = if h : n.val < 751 then cenArr m c (ix2 ⟨n.val, h⟩ k) else 0 := by
  obtain ⟨-, -, e2, e3, -⟩ := idx_facts t
  rw [← entry_cen m c n k]
  unfold iblk
  rw [View.read_apply]
  show V m c main_v1 _ = V m c main_v1 _
  congr 1
  funext a
  apply Fin.ext
  match a with
  | ⟨0, _⟩ => show win0_1.index t 0 * 768 + 1 * n.val = n.val; rw [e2]; omega
  | ⟨1, _⟩ => show win0_1.index t 1 * 2048 + 1 * k.val = k.val; rw [e3]; omega

/-- Point `t`'s block of the label column is rows 1024·t … of it: the rows' labels, each in the label range. -/
theorem blk_lab (c : Dev nD) (t : Fin cfg0.N) (r : Fin 1024) (hr : InRange (labArr m c (ix1 (rowAt t r)))) :
    (iblk m c 2 t : Vec Ideal S1024x1 .i32) (ix2 r 0) = labArr m c (ix1 (rowAt t r)) := by
  obtain ⟨-, -, -, -, e4, e5, -⟩ := idx_facts t
  rw [← entry_lab m c (rowAt t r) hr]
  unfold iblk
  rw [View.read_apply]
  show V m c main_v13 _ = V m c main_v13 _
  congr 1
  funext a
  apply Fin.ext
  match a with
  | ⟨0, _⟩ => show win0_2.index t 0 * 1024 + 1 * r.val = 1024 * t.val + r.val; rw [e4]; omega
  | ⟨1, _⟩ => show win0_2.index t 1 * 1 + 1 * 0 = 0; rw [e5]

/-- Point `t`'s block of the gathered squared norms is rows 1024·t … of that column. -/
theorem blk_csq (c : Dev nD) (t : Fin cfg0.N) (r : Fin 1024) (hr : InRange (labArr m c (ix1 (rowAt t r)))) :
    (iblk m c 3 t : Vec Ideal S1024x1 .f32) (ix2 r 0) = cenSq (cenArr m c) (cls (labArr m c (ix1 (rowAt t r)))) := by
  obtain ⟨-, -, -, -, -, -, e6, e7, -⟩ := idx_facts t
  rw [← entry_csq m c (rowAt t r) hr]
  unfold iblk
  rw [View.read_apply]
  show V m c main_v12 _ = V m c main_v12 _
  congr 1
  funext a
  apply Fin.ext
  match a with
  | ⟨0, _⟩ => show win0_3.index t 0 * 1024 + 1 * r.val = 1024 * t.val + r.val; rw [e6]; omega
  | ⟨1, _⟩ => show win0_3.index t 1 * 1 + 1 * 0 = 0; rw [e7]

/-! ## The output column -/

/-- The output column as one function of the arguments: row `b` holds row `b`'s clipped squared distance to its label's center. -/
def outCol (c : Dev nD) : S16384x1.Idx → EReal :=
  fun i => rowTerm (xArr m c) (cenArr m c) (i 0) (cls (labArr m c (ix1 (i 0))))

/-- WHAT POINT `t` WRITES BACK is block `t` of the output column. -/
theorem flushed_eq (hr : ∀ (c : Dev nD) (b : Fin 16384), InRange (labArr m c (ix1 b))) (c : Dev nD) (t : Fin cfg0.N) :
    (dats m 0 c).flushed 4 t = ((cfg0.win 4).blk t).view.read (Elt Ideal) (outCol m c) := by
  obtain ⟨-, -, -, -, -, -, -, -, e8, e9⟩ := idx_facts t
  show (cfg0.win 4).cut (grid0.coords t) ((dats m 0 c).after 4 t) = _
  rw [after0_4]
  unfold out0_4
  rw [View.canon_unit_zero hz]
  simp only [View.ld_unit_zero (S := S1024x2048) hz, View.ld_unit_zero (S := S768x2048) hz, View.ld_unit_zero (S := S1024x1) hz]
  funext j
  rw [View.read_apply]
  have h1 : (j 1).val < 1 := (j 1).isLt
  have hj : j = ix2 (j 0) (0 : Fin 1) := by
    funext a
    match a with
    | ⟨0, _⟩ => rfl
    | ⟨1, _⟩ => exact Fin.ext (by show (j 1).val = 0; omega)
  have he : ((cfg0.win 4).blk t).view.emb j = ix2 (rowAt t (j 0)) (0 : Fin 1) := by
    funext a
    apply Fin.ext
    match a with
    | ⟨0, _⟩ => show win0_4.index t 0 * 1024 + 1 * (j 0).val = 1024 * t.val + (j 0).val; rw [e8]; omega
    | ⟨1, _⟩ => show win0_4.index t 1 * 1 + 1 * (j 1).val = 0; rw [e9]; omega
  rw [he, hj]
  exact row_of_blocks (xArr m c) (labArr m c) (cenArr m c) (iblk m c 0 t) (iblk m c 1 t) (iblk m c 2 t) (iblk m c 3 t)
    (rowAt t (j 0)) (j 0) (hr c _) (blk_x m c t (j 0)) (blk_cen m c t) (blk_lab m c t (j 0) (hr c _)) (blk_csq m c t (j 0) (hr c _))

/-- An index of the column is in point `t`'s block iff each coordinate is in the block's range on its axis. -/
theorem mem_blk (t : Fin cfg0.N) (i : S16384x1.Idx) :
    i ∈ ((cfg0.win 4).blk t).view.set ↔ ∀ a : Fin 2, win0_4.index t a * S1024x1.size a ≤ (i a).val
      ∧ (i a).val < win0_4.index t a * S1024x1.size a + S1024x1.size a := by
  show i ∈ ((View.whole main_v14).slice (win0_4.rect t)).set ↔ _
  rw [View.set_slice_whole, Rect.mem_set_unit]
  exact Iff.rfl

/-- THE COLUMN after the run: row `b` lies in the block of point `b / 1024`, so the sixteen blocks cover it and it
    ends holding the output column. -/
theorem final (hr : ∀ (c : Dev nD) (b : Fin 16384), InRange (labArr m c (ix1 b))) (c : Dev nD) :
    (dats m 0 c).arrAt 4 cfg0.N = outCol m c :=
  (dats m 0 c).arrAt_eq_of_cover 4 (outCol m c) (fun t _ => flushed_eq m hr c t) fun i => by
    have hi0 : (i 0).val < 16384 := (i 0).isLt
    have hi1 : (i 1).val < 1 := (i 1).isLt
    have hN : cfg0.N = 16 := N_0
    refine ⟨⟨(i 0).val / 1024, by rw [hN]; omega⟩, flush0_4 _, ?_⟩
    rw [mem_blk]
    obtain ⟨-, -, -, -, -, -, -, -, e8, e9⟩ := idx_facts ⟨(i 0).val / 1024, by rw [hN]; omega⟩
    intro a
    match a with
    | ⟨0, _⟩ =>
      show win0_4.index _ 0 * 1024 ≤ (i 0).val ∧ (i 0).val < win0_4.index _ 0 * 1024 + 1024
      rw [e8]; show (i 0).val / 1024 * 1024 ≤ (i 0).val ∧ (i 0).val < (i 0).val / 1024 * 1024 + 1024; omega
    | ⟨1, _⟩ =>
      show win0_4.index _ 1 * 1 ≤ (i 1).val ∧ (i 1).val < win0_4.index _ 1 * 1 + 1
      rw [e9]; omega

/-! ## The lines after the region -/

/-- The result the lines after the region leave: the column summed from zero, divided by the row count. -/
theorem tail_value (hr : ∀ (c : Dev nD) (b : Fin 16384), InRange (labArr m c (ix1 b))) (c : Dev nD) :
    Pipeline.afterTail₀ cfgs (dats m) 0 (V0 m) [hostOps1] c main_v16
      = fun _ => meanLoss (xArr m c) (labArr m c) (cenArr m c) := by
  unfold Pipeline.afterTail₀
  show StableHlo.after hostOps1 _ (Proc.devRef .tc main_v16) = _
  after_results
  -- the region's array among the buffers the tail reads is the column the run leaves
  have hw : Pipeline.withArrays (cfgs 0).spec c (V0 m c) (fun w => (dats m 0 c).arrAt w (cfgs 0).N) (Proc.tc.devRef main_v14)
      = outCol m c :=
    (Pipeline.withArrays_arr spec0 launch0.win.arr_inj c _ _ 4).trans (final m hr c)
  rw [hw]
  funext j
  show Ideal.div (Ideal.hostReduceAdd reducesTo_S16384x1_S_d0_1 (outCol m c) (Ideal.ofBits .f32 0x00000000#32) j)
      (Ideal.ofBits .f32 0x46800000#32) = meanLoss _ _ _
  -- a sum into rank 0 from zero is the sum over every index; over a column that is the sum over the rows
  rw [Ideal.hostReduceAdd_total reducesTo_S16384x1_S_d0_1 (fun b => b.elim0) (outCol m c) _ j, Ideal.ofBits_zero_f32,
    zero_add, sum_idx2]
  unfold meanLoss count
  refine congrArg (fun s => Ideal.div s (Ideal.ofBits .f32 0x46800000#32)) ?_
  exact Finset.sum_congr rfl fun b _ => by rw [Fin.sum_univ_one]; rfl

/-! ## The run, read -/

/-- With every label in the label range: every weakly fair execution of the kernel's program terminates with its
    result at the mean loss of the three arguments, the arguments unchanged. -/
theorem kernel_run (hr : ∀ (c : Dev nD) (b : Fin 16384), InRange (labArr m c (ix1 b))) :
    θ_run defs (onTc (τ := τ) (main (F := Ideal))) ⟨m, fun _ => 0, ρ⟩ (fun r => ∀ c : Dev nD,
      r.2.mem ((c.tc : Thread nD τ).loc main_v16) = (fun _ => meanLoss (xArr m c) (labArr m c) (cenArr m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v16 (Pipeline.mem_restRefs_of main_v16 (by decide) (by decide))).trans (tail_value m hr c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.CenterDist

end
-- ==== Proof.lean ====
/-
  The certificate of the center-loss kernel against its reference, over the extended reals.

  Both programs compute the mean, over the 16384 rows of `x`, of the clipped squared distance from the row to the
  center of the row's label, the squared distance expanded as |x_b|² + |c_l|² − 2·⟨x_b, c_l⟩ (Proof/Spec.lean).
  The reference builds the whole [16384 × 751] distance matrix and gathers each row's label's column. The kernel
  never builds it: each of sixteen grid points multiplies its 1024 rows by the (padded) centers, keeps in each row
  the one product whose column number is the row's label, and adds the row's squared norm and the label's center's
  squared norm, the latter gathered beforehand; the lines after the region average the column.
  The two agree where every label is in the label range [0, 751), which the precondition states: there the kernel's
  clamp of the labels and the reference's wrap-around of negative indices both leave a label alone, and the label's
  column lies among the first 751, where the padded centers are the centers (outside that range the reference reads
  another center or fills, and the two differ).

  The frames of the two kernel programs are their generated frame certificates; the reference's is its run with the
  result dropped. The kernel's idealization rewrote nothing, so there is nothing to preserve.
-/
import proofs.«428161_j5669356836479_3_alg».proof.Defs
import proofs.«428161_j5669356836479_3_alg».proof.Proof.Gen.Kernel
import proofs.«428161_j5669356836479_3_alg».proof.Proof.Gen.Kernel.Skeleton
import proofs.«428161_j5669356836479_3_alg».proof.Proof.Gen.Kernel.Launch
import proofs.«428161_j5669356836479_3_alg».proof.Proof.Gen.Kernel.Points
import proofs.«428161_j5669356836479_3_alg».proof.Proof.Gen.Kernel.Frame
import proofs.«428161_j5669356836479_3_alg».proof.Proof.Gen.KernelIdeal
import proofs.«428161_j5669356836479_3_alg».proof.Proof.Gen.KernelIdeal.Skeleton
import proofs.«428161_j5669356836479_3_alg».proof.Proof.Gen.KernelIdeal.Launch
import proofs.«428161_j5669356836479_3_alg».proof.Proof.Gen.KernelIdeal.Points
import proofs.«428161_j5669356836479_3_alg».proof.Proof.Gen.KernelIdeal.Frame
import proofs.«428161_j5669356836479_3_alg».proof.Proof.Gen.ReferenceIdeal
import proofs.«428161_j5669356836479_3_alg».proof.Proof.RefRun
import proofs.«428161_j5669356836479_3_alg».proof.Proof.RefRead
import proofs.«428161_j5669356836479_3_alg».proof.Proof.Gen.Pre_finite_inputs
import proofs.«428161_j5669356836479_3_alg».proof.Proof.Spec
import proofs.«428161_j5669356836479_3_alg».proof.Proof.Decode
import proofs.«428161_j5669356836479_3_alg».proof.Proof.RefValue
import proofs.«428161_j5669356836479_3_alg».proof.Proof.KernelValue
import Idealize.ShloMosaic.Adequacy
import Idealize.ShloMosaic.Init

noncomputable section

namespace Cert.Proof

open Idealize.ShloMosaic Idealize.ShloMosaic.TcCoe Idealize.ShloMosaic.ValueIdx Idealize.SL.Sem Cert.CenterDist

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- Where the precondition holds every label is in the label range; there the kernel's run ends at the mean loss of
    its arguments, and so does the reference's, of arguments that agree. -/
theorem algebraic : Cert.algebraic_KernelIdeal_ReferenceIdeal := by
  intro m ρ m' ρ' hpre hagree
  have hr : ∀ (c : Dev Cert.KernelIdeal.nD) (b : Fin 16384), InRange (labArr m c (ix1 b)) :=
    fun c b => inRange_of_pre _ _ _ (hpre c) b
  refine ⟨fun c => fun _ => meanLoss (xArr m c) (labArr m c) (cenArr m c), kernel_run m ρ hr, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v19_eq, (hagree c).1, (hagree c).2.1, (hagree c).2.2]
  exact ref_value _ _ _ (hr c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
